-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x500000 32) (main_arg2 : FVec F S128x256 .f32) (main_arg3 : FVec F S256 .f32) (main_arg4 : FVec F S256x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S100000x128 : Shape := ⟨2, ![100000, 128]⟩
abbrev S2x500000 : Shape := ⟨2, ![2, 500000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S100000 : Shape := ⟨1, ![100000]⟩
abbrev S1x500000 : Shape := ⟨2, ![1, 500000]⟩
abbrev S500000 : Shape := ⟨1, ![500000]⟩
abbrev S600000 : Shape := ⟨1, ![600000]⟩
abbrev S_ : Shape := ⟨0, ![]⟩
abbrev S600000x1 : Shape := ⟨2, ![600000, 1]⟩
abbrev S100000x256 : Shape := ⟨2, ![100000, 256]⟩
abbrev S5000x128 : Shape := ⟨2, ![5000, 128]⟩
abbrev S5000x256 : Shape := ⟨2, ![5000, 256]⟩
abbrev S600000x256 : Shape := ⟨2, ![600000, 256]⟩
abbrev S1x256 : Shape := ⟨2, ![1, 256]⟩
abbrev S100000x64 : Shape := ⟨2, ![100000, 64]⟩
abbrev S5000x64 : Shape := ⟨2, ![5000, 64]⟩
abbrev S600000x64 : Shape := ⟨2, ![600000, 64]⟩
abbrev S1x64 : Shape := ⟨2, ![1, 64]⟩

abbrev nBuf : Space → Nat
  | .hbm => 92
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S100000, .i32⟩
  | .hbm, ⟨7, _⟩ => ⟨S1x500000, .i32⟩
  | .hbm, ⟨8, _⟩ => ⟨S500000, .i32⟩
  | .hbm, ⟨9, _⟩ => ⟨S600000, .i32⟩
  | .hbm, ⟨10, _⟩ => ⟨S1x500000, .i32⟩
  | .hbm, ⟨11, _⟩ => ⟨S500000, .i32⟩
  | .hbm, ⟨12, _⟩ => ⟨S600000, .i32⟩
  | .hbm, ⟨13, _⟩ => ⟨S_, .f32⟩
  | .hbm, ⟨14, _⟩ => ⟨S600000, .f32⟩
  | .hbm, ⟨15, _⟩ => ⟨S_, .f32⟩
  | .hbm, ⟨16, _⟩ => ⟨S100000, .f32⟩
  | .hbm, ⟨17, _⟩ => ⟨S600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000, .f32⟩
  | .hbm, ⟨48, _⟩ => ⟨S600000, .f32⟩
  | .hbm, ⟨49, _⟩ => ⟨S100000x256, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x256, .f32⟩
  | .hbm, ⟨59, _⟩ => ⟨S600000x1, .f32⟩
  | .hbm, ⟨60, _⟩ => ⟨S600000x256, .f32⟩
  | .hbm, ⟨61, _⟩ => ⟨S600000x256, .f32⟩
  | .hbm, ⟨62, _⟩ => ⟨S_, .f32⟩
  | .hbm, ⟨63, _⟩ => ⟨S100000x256, .f32⟩
  | .hbm, ⟨64, _⟩ => ⟨S600000x1, .i32⟩
  | .hbm, ⟨65, _⟩ => ⟨S100000x256, .f32⟩
  | .hbm, ⟨66, _⟩ => ⟨S1x256, .f32⟩
  | .hbm, ⟨67, _⟩ => ⟨S100000x256, .f32⟩
  | .hbm, ⟨68, _⟩ => ⟨S100000x256, .f32⟩
  | .hbm, ⟨69, _⟩ => ⟨S_, .f32⟩
  | .hbm, ⟨70, _⟩ => ⟨S100000x256, .f32⟩
  | .hbm, ⟨71, _⟩ => ⟨S100000x256, .f32⟩
  | .hbm, ⟨72, _⟩ => ⟨S100000x64, .f32⟩
  | .hbm, ⟨73, _⟩ => ⟨S_, .i32⟩
  | .hbm, ⟨74, _⟩ => ⟨S600000, .i32⟩
  | .hbm, ⟨75, _⟩ => ⟨S600000, .i1⟩
  | .hbm, ⟨76, _⟩ => ⟨S_, .i32⟩
  | .hbm, ⟨77, _⟩ => ⟨S600000, .i32⟩
  | .hbm, ⟨78, _⟩ => ⟨S600000, .i32⟩
  | .hbm, ⟨79, _⟩ => ⟨S600000, .i32⟩
  | .hbm, ⟨80, _⟩ => ⟨S600000x1, .i32⟩
  | .hbm, ⟨81, _⟩ => ⟨S600000x64, .f32⟩
  | .hbm, ⟨82, _⟩ => ⟨S600000x1, .f32⟩
  | .hbm, ⟨83, _⟩ => ⟨S600000x64, .f32⟩
  | .hbm, ⟨84, _⟩ => ⟨S600000x64, .f32⟩
  | .hbm, ⟨85, _⟩ => ⟨S_, .f32⟩
  | .hbm, ⟨86, _⟩ => ⟨S100000x64, .f32⟩
  | .hbm, ⟨87, _⟩ => ⟨S600000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x500000_S1x500000_0_0 : S2x500000.Slices ![0, 0] S1x500000
  shapeCasts_S1x500000_S500000 : S1x500000.ShapeCasts S500000
  concatenates_S500000_S100000_S600000_d0 : Shape.Concatenates [S500000, S100000] S600000 0
  slices_S2x500000_S1x500000_1_0 : S2x500000.Slices ![1, 0] S1x500000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S600000x1_S600000x256_0_1 : S600000x1.BroadcastsInDim S600000x256 (![0, 1] : Fin 2 → Fin S600000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  shapeCasts_S5000x256_S5000x256 : S5000x256.ShapeCasts S5000x256
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S600000x1_S600000x64_0_1 : S600000x1.BroadcastsInDim S600000x64 (![0, 1] : Fin 2 → Fin S600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S5000x128_S128x256_S5000x256_1_0_0_1_n_n_wf : DotDims.WF S5000x128 S128x256 S5000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S5000x256_S256x64_S5000x64_1_0_0_1_n_n_wf : DotDims.WF S5000x256 S256x64 S5000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S100000 : Shape := ⟨1, ![100000]⟩
abbrev S1x500000 : Shape := ⟨2, ![1, 500000]⟩
abbrev S500000 : Shape := ⟨1, ![500000]⟩
abbrev S600000 : Shape := ⟨1, ![600000]⟩
abbrev S_ : Shape := ⟨0, ![]⟩
abbrev S600000x1 : Shape := ⟨2, ![600000, 1]⟩
abbrev S100000x256 : Shape := ⟨2, ![100000, 256]⟩
abbrev S600000x256 : Shape := ⟨2, ![600000, 256]⟩
abbrev S1x256 : Shape := ⟨2, ![1, 256]⟩
abbrev S100000x64 : Shape := ⟨2, ![100000, 64]⟩
abbrev S600000x64 : Shape := ⟨2, ![600000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S100000, .i32⟩
  | .hbm, ⟨7, _⟩ => ⟨S1x500000, .i32⟩
  | .hbm, ⟨8, _⟩ => ⟨S500000, .i32⟩
  | .hbm, ⟨9, _⟩ => ⟨S600000, .i32⟩
  | .hbm, ⟨10, _⟩ => ⟨S1x500000, .i32⟩
  | .hbm, ⟨11, _⟩ => ⟨S500000, .i32⟩
  | .hbm, ⟨12, _⟩ => ⟨S600000, .i32⟩
  | .hbm, ⟨13, _⟩ => ⟨S_, .f32⟩
  | .hbm, ⟨14, _⟩ => ⟨S600000, .f32⟩
  | .hbm, ⟨15, _⟩ => ⟨S_, .f32⟩
  | .hbm, ⟨16, _⟩ => ⟨S100000, .f32⟩
  | .hbm, ⟨17, _⟩ => ⟨S600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000, .f32⟩
  | .hbm, ⟨48, _⟩ => ⟨S600000, .f32⟩
  | .hbm, ⟨49, _⟩ => ⟨S100000x256, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x256, .f32⟩
  | .hbm, ⟨59, _⟩ => ⟨S600000x1, .f32⟩
  | .hbm, ⟨60, _⟩ => ⟨S600000x256, .f32⟩
  | .hbm, ⟨61, _⟩ => ⟨S600000x256, .f32⟩
  | .hbm, ⟨62, _⟩ => ⟨S_, .f32⟩
  | .hbm, ⟨63, _⟩ => ⟨S100000x256, .f32⟩
  | .hbm, ⟨64, _⟩ => ⟨S600000x1, .i32⟩
  | .hbm, ⟨65, _⟩ => ⟨S100000x256, .f32⟩
  | .hbm, ⟨66, _⟩ => ⟨S1x256, .f32⟩
  | .hbm, ⟨67, _⟩ => ⟨S100000x256, .f32⟩
  | .hbm, ⟨68, _⟩ => ⟨S100000x256, .f32⟩
  | .hbm, ⟨69, _⟩ => ⟨S_, .f32⟩
  | .hbm, ⟨70, _⟩ => ⟨S100000x256, .f32⟩
  | .hbm, ⟨71, _⟩ => ⟨S100000x256, .f32⟩
  | .hbm, ⟨72, _⟩ => ⟨S100000x64, .f32⟩
  | .hbm, ⟨73, _⟩ => ⟨S_, .i32⟩
  | .hbm, ⟨74, _⟩ => ⟨S600000, .i32⟩
  | .hbm, ⟨75, _⟩ => ⟨S600000, .i1⟩
  | .hbm, ⟨76, _⟩ => ⟨S_, .i32⟩
  | .hbm, ⟨77, _⟩ => ⟨S600000, .i32⟩
  | .hbm, ⟨78, _⟩ => ⟨S600000, .i32⟩
  | .hbm, ⟨79, _⟩ => ⟨S600000, .i32⟩
  | .hbm, ⟨80, _⟩ => ⟨S600000x1, .i32⟩
  | .hbm, ⟨81, _⟩ => ⟨S600000x64, .f32⟩
  | .hbm, ⟨82, _⟩ => ⟨S600000x1, .f32⟩
  | .hbm, ⟨83, _⟩ => ⟨S600000x64, .f32⟩
  | .hbm, ⟨84, _⟩ => ⟨S600000x64, .f32⟩
  | .hbm, ⟨85, _⟩ => ⟨S_, .f32⟩
  | .hbm, ⟨86, _⟩ => ⟨S100000x64, .f32⟩
  | .hbm, ⟨87, _⟩ => ⟨S600000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  concatenates_S500000_S100000_S600000_d0 : Shape.Concatenates [S500000, S100000] S600000 0
  slices_S2x500000_S1x500000_1_0 : S2x500000.Slices ![1, 0] S1x500000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x256_0_1 : S600000x1.BroadcastsInDim S600000x256 (![0, 1] : Fin 2 → Fin S600000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S600000x1_S600000x64_0_1 : S600000x1.BroadcastsInDim S600000x64 (![0, 1] : Fin 2 → Fin S600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S100000x128_S128x256_S100000x256_1_0_0_1_n_n_wf : DotDims.WF S100000x128 S128x256 S100000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S100000x256_S256x64_S100000x64_1_0_0_1_n_n_wf : DotDims.WF S100000x256 S256x64 S100000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf

class Facts : Prop extends Facts₀ where

variable [Facts]
-- ==== Proof.Chain.lean ====
/-
  The kernel's program read back through its boundaries, against the reference's stages.

  Both programs apply the same host operations to the same arguments; they differ only where the reference has a
  `dot_general` (its values %32 and %50) and the kernel a pallas_call writing the same buffer. So every buffer the
  kernel's program holds at a boundary is the reference's stage of the same name, as a function of the launch arguments:
  before the first call (the edge lists with their self loops, and the edge weights 1/sqrt(deg src · deg dst)); after
  the first call and its gather / scale / scatter-add / bias / relu; after the second call and its tail. The facts
  below are generic in the float family: the two calls' output arrays enter as hypotheses (`h32`, `h50`), which are
  proved at the ideal values elsewhere, where a tiled product into zero is the whole product.
-/
import proofs.«159566_j10282151706797_1_alg».proof.Proof.Gen.KernelIdeal.Frame
import proofs.«159566_j10282151706797_1_alg».proof.Proof.RefReadP
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.ReadP (val_main_v3 val_main_v6 val_main_v31 val_main_v32 val_main_v49 val_main_v50 val_main_v66)

/-- Reads a buffer after a line of host operations: one pass over the operations' results, then the same inside the
    operand lists of a `concatenate`, where the pass does not look. -/
macro "read_fold" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

variable {F : FTy → Type} [FloatOps F]
variable (m : (ℓ : Loc nD τ sig) → Buf (Elt F) ℓ) (ρ : Dev nD → PrngReg)

/-- The launch arguments on core `c`. -/
abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)

/-! ## Before the first call -/

theorem W3_arg0 (c : Dev nD) : W3 m ρ c (Proc.devRef .tc main_arg0) = x0 m c := by
  dsimp only [W3, W2, W1, hostOps0, hostOps0_1, hostOps0_2]; read_fold
theorem W3_arg2 (c : Dev nD) : W3 m ρ c (Proc.devRef .tc main_arg2) = x2 m c := by
  dsimp only [W3, W2, W1, hostOps0, hostOps0_1, hostOps0_2]; read_fold
theorem W3_arg3 (c : Dev nD) : W3 m ρ c (Proc.devRef .tc main_arg3) = x3 m c := by
  dsimp only [W3, W2, W1, hostOps0, hostOps0_1, hostOps0_2]; read_fold
theorem W3_arg4 (c : Dev nD) : W3 m ρ c (Proc.devRef .tc main_arg4) = x4 m c := by
  dsimp only [W3, W2, W1, hostOps0, hostOps0_1, hostOps0_2]; read_fold
theorem W3_arg5 (c : Dev nD) : W3 m ρ c (Proc.devRef .tc main_arg5) = x5 m c := by
  dsimp only [W3, W2, W1, hostOps0, hostOps0_1, hostOps0_2]; read_fold

/-- The source list with the self loops appended. -/
theorem W3_v3 (c : Dev nD) : W3 m ρ c (Proc.devRef .tc main_v3) = val_main_v3 (F := F) (x1 m c) := by
  dsimp only [W3, W2, W1, hostOps0, hostOps0_1, hostOps0_2]; read_fold; rfl
/-- The destination list with the self loops appended. -/
theorem W3_v6 (c : Dev nD) : W3 m ρ c (Proc.devRef .tc main_v6) = val_main_v6 (F := F) (x1 m c) := by
  dsimp only [W3, W2, W1, hostOps0, hostOps0_1, hostOps0_2]; read_fold; rfl
/-- The edge weights. -/
theorem W3_v31 (c : Dev nD) : W3 m ρ c (Proc.devRef .tc main_v31) = val_main_v31 (F := F) (x1 m c) := by
  dsimp only [W3, W2, W1, hostOps0, hostOps0_1, hostOps0_2]; read_fold; rfl

/-! ## After the first call: it writes only its output array -/

theorem W4_v3 (c : Dev nD) : W4 m ρ c (Proc.devRef .tc main_v3) = val_main_v3 (F := F) (x1 m c) :=
  (W4_of_ne m ρ c main_v3 (by decide)).trans (W3_v3 m ρ c)
theorem W4_v6 (c : Dev nD) : W4 m ρ c (Proc.devRef .tc main_v6) = val_main_v6 (F := F) (x1 m c) :=
  (W4_of_ne m ρ c main_v6 (by decide)).trans (W3_v6 m ρ c)
theorem W4_v31 (c : Dev nD) : W4 m ρ c (Proc.devRef .tc main_v31) = val_main_v31 (F := F) (x1 m c) :=
  (W4_of_ne m ρ c main_v31 (by decide)).trans (W3_v31 m ρ c)
theorem W4_arg3 (c : Dev nD) : W4 m ρ c (Proc.devRef .tc main_arg3) = x3 m c :=
  (W4_of_ne m ρ c main_arg3 (by decide)).trans (W3_arg3 m ρ c)
theorem W4_arg4 (c : Dev nD) : W4 m ρ c (Proc.devRef .tc main_arg4) = x4 m c :=
  (W4_of_ne m ρ c main_arg4 (by decide)).trans (W3_arg4 m ρ c)
theorem W4_arg5 (c : Dev nD) : W4 m ρ c (Proc.devRef .tc main_arg5) = x5 m c :=
  (W4_of_ne m ρ c main_arg5 (by decide)).trans (W3_arg5 m ρ c)

/-! ## Between the calls: gather the first product's rows by source, scale by the edge weights, add into the destination rows, add the bias, relu -/

theorem W6_v3 (c : Dev nD) : W6 m ρ c (Proc.devRef .tc main_v3) = val_main_v3 (F := F) (x1 m c) := by
  dsimp only [W6, W5, hostOps1, hostOps1_1]; read_fold; exact W4_v3 m ρ c
theorem W6_v6 (c : Dev nD) : W6 m ρ c (Proc.devRef .tc main_v6) = val_main_v6 (F := F) (x1 m c) := by
  dsimp only [W6, W5, hostOps1, hostOps1_1]; read_fold; exact W4_v6 m ρ c
theorem W6_v31 (c : Dev nD) : W6 m ρ c (Proc.devRef .tc main_v31) = val_main_v31 (F := F) (x1 m c) := by
  dsimp only [W6, W5, hostOps1, hostOps1_1]; read_fold; exact W4_v31 m ρ c
theorem W6_arg4 (c : Dev nD) : W6 m ρ c (Proc.devRef .tc main_arg4) = x4 m c := by
  dsimp only [W6, W5, hostOps1, hostOps1_1]; read_fold; exact W4_arg4 m ρ c
theorem W6_arg5 (c : Dev nD) : W6 m ρ c (Proc.devRef .tc main_arg5) = x5 m c := by
  dsimp only [W6, W5, hostOps1, hostOps1_1]; read_fold; exact W4_arg5 m ρ c

/-- The second call's left operand: the first layer's output, given that the first call left the whole product. -/
theorem W6_v49 (c : Dev nD)
    (h32 : W4 m ρ c (Proc.devRef .tc main_v32) = val_main_v32 (F := F) (x0 m c) (x2 m c)) :
    W6 m ρ c (Proc.devRef .tc main_v49) = val_main_v49 (F := F) (x0 m c) (x1 m c) (x2 m c) (x3 m c) := by
  dsimp only [W6, W5, hostOps1, hostOps1_1]
  read_fold
  rw [h32, W4_v3 m ρ c, W4_v6 m ρ c, W4_v31 m ρ c, W4_arg3 m ρ c]
  rfl

/-! ## After the second call, and the tail -/

theorem W7_v3 (c : Dev nD) : W7 m ρ c (Proc.devRef .tc main_v3) = val_main_v3 (F := F) (x1 m c) :=
  (W7_of_ne m ρ c main_v3 (by decide)).trans (W6_v3 m ρ c)
theorem W7_v6 (c : Dev nD) : W7 m ρ c (Proc.devRef .tc main_v6) = val_main_v6 (F := F) (x1 m c) :=
  (W7_of_ne m ρ c main_v6 (by decide)).trans (W6_v6 m ρ c)
theorem W7_v31 (c : Dev nD) : W7 m ρ c (Proc.devRef .tc main_v31) = val_main_v31 (F := F) (x1 m c) :=
  (W7_of_ne m ρ c main_v31 (by decide)).trans (W6_v31 m ρ c)
theorem W7_arg5 (c : Dev nD) : W7 m ρ c (Proc.devRef .tc main_arg5) = x5 m c :=
  (W7_of_ne m ρ c main_arg5 (by decide)).trans (W6_arg5 m ρ c)

/-- The result: the second layer's output, given that the second call left the whole product. -/
theorem W8_v66 (c : Dev nD)
    (h50 : W7 m ρ c (Proc.devRef .tc main_v50) = val_main_v50 (F := F) (x0 m c) (x1 m c) (x2 m c) (x3 m c) (x4 m c)) :
    W8 m ρ c (Proc.devRef .tc main_v66) = val_main_v66 (F := F) (x0 m c) (x1 m c) (x2 m c) (x3 m c) (x4 m c) (x5 m c) := by
  dsimp only [W8, hostOps2]
  read_fold
  rw [h50, W7_v3 m ρ c, W7_v6 m ρ c, W7_v31 m ρ c, W7_arg5 m ρ c]
  rfl

end Cert.KernelIdeal.Chain

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.Region0.lean ====
/-
  Region 0 of the kernel's program: the pallas_call that multiplies a 100000×128 array by a 128×256 matrix, 5000 rows at a
  time over a grid of 20 points, read at the ideal values.

  At grid point t the body loads rows t·5000 … t·5000+4999 of the left array (all 128 columns) and the whole right matrix,
  narrows both to bf16 — the identity on the extended reals — and stores their product into the zero accumulator: entry
  (p, q) of the block is Σ_k left(t·5000+p, k) · right(k, q). That is entry (t·5000+p, q) of the whole product
  left · right, so every point writes back ITS BLOCK OF ONE whole-array function, and the twenty row blocks tile the
  100000 rows (row r lies in block r / 5000). Hence the output array after the region is the whole product.
-/
import proofs.«159566_j10282151706797_1_alg».proof.Proof.Gen.KernelIdeal.Frame
import proofs.«159566_j10282151706797_1_alg».proof.Proof.LibMatmulPlain
import Idealize.ShloMosaic.Lib.Pipeline.Value
import Idealize.ShloMosaic.Lib.ValueIdx
import Idealize.ShloMosaic.Lib.StackMember
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The whole product left · right at the ideal values: the function every block of the output is a block of. -/
abbrev product (x : FVec Ideal ⟨2, ![100000, 128]⟩ .f32) (w : FVec Ideal ⟨2, ![128, 256]⟩ .f32) : FVec Ideal ⟨2, ![100000, 256]⟩ .f32 :=
  Host.dotGeneral (DotDims.plain 100000 128 256) none x w

/-- Entry (a, b) of the whole product is the sum over the contracted coordinate. -/
theorem product_apply (x : FVec Ideal ⟨2, ![100000, 128]⟩ .f32) (w : FVec Ideal ⟨2, ![128, 256]⟩ .f32) (a : Fin 100000) (b : Fin 256) :
    product x w (ix2 a b) = ∑ k : Fin 128, x (ix2 a k) * w (ix2 k b) :=
  StackMember.dotGeneral_plain_apply none x w a b

theorem hz : (![0, 0] : Fin 2 → Nat) = fun _ => 0 := funext fun a => by fin_cases a <;> rfl

/-- The body's stored value at entry (p, q) of its block: the narrowing to bf16 is the identity at the ideal values
    and the product into the zero accumulator is the plain sum over the contracted coordinate. -/
theorem payload_apply (x0 : FVec Ideal ⟨2, ![5000, 128]⟩ .f32) (x1 : FVec Ideal ⟨2, ![128, 256]⟩ .f32) (p : Fin 5000) (q : Fin 256) :
    k0_pay1 (F := Ideal) x0 x1 (ix2 p q) = ∑ k : Fin 128, x0 (ix2 p k) * x1 (ix2 k q) := by
  unfold k0_pay1
  exact Cert.LibMatmulPlain.matmul_plain_zero_apply (φ₁ := .bf16) (φ₂ := .bf16) none x0 x1 p q

/-- The printed index maps over the grid: the left and the output windows move down the rows with the point, the
    right window stays, and no window moves along the columns. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 20 := by have h := t.isLt; have hN : cfg0.N = 20 := N_0; omega

section
variable (V : (c : Dev nD) → (b : Ref sig .tc) → Buf (Elt Ideal) ((c : Thread nD τ).loc b))

/-- The left array and the right matrix as the region finds them. -/
abbrev left (c : Dev nD) : FVec Ideal ⟨2, ![100000, 128]⟩ .f32 := V c main_arg0
abbrev right (c : Dev nD) : FVec Ideal ⟨2, ![128, 256]⟩ .f32 := V c main_arg2

/-- Entry (p, k) of the left window's block at point t is entry (t·5000+p, k) of the left array. -/
theorem left_block (c : Dev nD) (t : Fin cfg0.N) (p : Fin 5000) (k : Fin 128) :
    iblk0 V c 0 t (ix2 p k) = left V c (ix2 (⟨t.val * 5000 + p.val, by have := t_lt t; have := p.isLt; omega⟩ : Fin 100000) k) := by
  show V c main_arg0 (((cfg0.win 0).blk t).view.emb (ix2 p k)) = V c main_arg0 _
  refine congrArg (V c main_arg0) ?_
  obtain ⟨e0, e1, -, -, -, -⟩ := idx_facts t
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The right window's block at every point is the whole right matrix. -/
theorem right_block (c : Dev nD) (t : Fin cfg0.N) (k : Fin 128) (q : Fin 256) :
    iblk0 V c 1 t (ix2 k q) = right V c (ix2 k q) := by
  show V c main_arg2 (((cfg0.win 1).blk t).view.emb (ix2 k q)) = V c main_arg2 _
  refine congrArg (V c main_arg2) ?_
  obtain ⟨-, -, e2, e3, -, -⟩ := idx_facts t
  funext a; apply Fin.ext
  match a with
  | ⟨0, _⟩ => show win0_1.index t (0 : Fin 2) * 128 + 1 * k.val = k.val; rw [e2]; omega
  | ⟨1, _⟩ => show win0_1.index t (1 : Fin 2) * 256 + 1 * q.val = q.val; rw [e3]; omega

/-- Entry (p, q) of the output window's block at point t sits at (t·5000+p, q) of the output array. -/
theorem out_emb (t : Fin cfg0.N) (p : Fin 5000) (q : Fin 256) :
    ((cfg0.win 2).blk t).view.emb (ix2 p q) = ix2 (⟨t.val * 5000 + p.val, by have := t_lt t; have := p.isLt; omega⟩ : Fin 100000) q := by
  obtain ⟨-, -, -, -, e4, e5⟩ := idx_facts t
  funext a; apply Fin.ext
  match a with
  | ⟨0, _⟩ => show win0_2.index t (0 : Fin 2) * 5000 + 1 * p.val = t.val * 5000 + p.val; rw [e4]; omega
  | ⟨1, _⟩ => show win0_2.index t (1 : Fin 2) * 256 + 1 * q.val = q.val; rw [e5]; omega

/-- WHAT POINT t WRITES BACK is block t of the whole product of the arrays the region finds. -/
theorem flushed_eq (c : Dev nD) (t : Fin cfg0.N) :
    (dat0 (F := Ideal) V c).flushed 2 t = ((cfg0.win 2).blk t).view.read (Elt Ideal) (product (left V c) (right V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  funext j
  obtain ⟨p, q, rfl⟩ : ∃ (p : Fin 5000) (q : Fin 256), j = ix2 p q := ⟨j 0, j 1, eq_ix2 j⟩
  show k0_pay1 (F := Ideal) (iblk0 V c 0 t) (iblk0 V c 1 t) (ix2 p q) = product (left V c) (right V c) (((cfg0.win 2).blk t).view.emb (ix2 p q))
  rw [out_emb t p q, product_apply]
  refine (payload_apply (iblk0 V c 0 t) (iblk0 V c 1 t) p q).trans ?_
  exact Finset.sum_congr rfl fun k _ => by rw [left_block V c t p k, right_block V c t k q]

/-- An index of the output array is in point t's block iff each coordinate is in the block's range on its axis. -/
theorem mem_blk (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v32).slice (win0_2.rect t)).set ↔ _
  rw [View.set_slice_whole, Rect.mem_set_unit]
  exact Iff.rfl

/-- The twenty row blocks tile the output array: row r is in the block of point r / 5000. -/
theorem cover (i : S100000x256.Idx) : ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 20 := N_0
  let t : Fin cfg0.N := ⟨(i 0).val / 5000, by rw [hN]; omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 256 ≤ (i 1).val ∧ (i 1).val < win0_2.index t (1 : Fin 2) * 256 + 256; rw [e5]; omega

/-- THE OUTPUT ARRAY after the region is the whole product of the left array and the right matrix as the region found them. -/
theorem array_eq (c : Dev nD) :
    (dat0 (F := Ideal) V c).arrAt 2 cfg0.N = product (left V c) (right V c) :=
  (dat0 (F := Ideal) V c).arrAt_eq_of_cover 2 (product (left V c) (right V c)) (fun t _ => flushed_eq V c t) (cover)

end

end Cert.KernelIdeal.Region0

end
-- ==== Proof.Region1.lean ====
/-
  Region 1 of the kernel's program: the pallas_call that multiplies the 100000×256 first-layer output by the 256×64
  second weight matrix, 5000 rows at a time over a grid of 20 points, read at the ideal values.

  At grid point t the body loads rows t·5000 … t·5000+4999 of the left array (all 256 columns) and the whole right
  matrix, casts the left block to its own shape (the identity), narrows both to bf16 — the identity on the extended
  reals — and stores their product into the zero accumulator: entry (p, q) of the block is
  Σ_k left(t·5000+p, k) · right(k, q). That is entry (t·5000+p, q) of the whole product left · right, so every point
  writes back ITS BLOCK OF ONE whole-array function, and the twenty row blocks tile the 100000 rows (row r lies in block
  r / 5000). Hence the output array after the region is the whole product.
-/
import proofs.«159566_j10282151706797_1_alg».proof.Proof.Gen.KernelIdeal.Frame
import proofs.«159566_j10282151706797_1_alg».proof.Proof.LibMatmulPlain
import Idealize.ShloMosaic.Lib.Pipeline.Value
import Idealize.ShloMosaic.Lib.ValueIdx
import Idealize.ShloMosaic.Lib.StackMember
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The whole product left · right at the ideal values: the function every block of the output is a block of. -/
abbrev product (x : FVec Ideal ⟨2, ![100000, 256]⟩ .f32) (w : FVec Ideal ⟨2, ![256, 64]⟩ .f32) : FVec Ideal ⟨2, ![100000, 64]⟩ .f32 :=
  Host.dotGeneral (DotDims.plain 100000 256 64) none x w

/-- Entry (a, b) of the whole product is the sum over the contracted coordinate. -/
theorem product_apply (x : FVec Ideal ⟨2, ![100000, 256]⟩ .f32) (w : FVec Ideal ⟨2, ![256, 64]⟩ .f32) (a : Fin 100000) (b : Fin 64) :
    product x w (ix2 a b) = ∑ k : Fin 256, x (ix2 a k) * w (ix2 k b) :=
  StackMember.dotGeneral_plain_apply none x w a b

theorem hz : (![0, 0] : Fin 2 → Nat) = fun _ => 0 := funext fun a => by fin_cases a <;> rfl

/-- The body's stored value at entry (p, q) of its block: the cast to the same shape and the narrowing to bf16 are the
    identity at the ideal values, and the product into the zero accumulator is the plain sum over the contracted
    coordinate. -/
theorem payload_apply (x0 : FVec Ideal ⟨2, ![5000, 256]⟩ .f32) (x1 : FVec Ideal ⟨2, ![256, 64]⟩ .f32) (p : Fin 5000) (q : Fin 64) :
    k1_pay1 (F := Ideal) x0 x1 (ix2 p q) = ∑ k : Fin 256, x0 (ix2 p k) * x1 (ix2 k q) := by
  unfold k1_pay1
  refine (Cert.LibMatmulPlain.matmul_plain_zero_apply (φ₁ := .bf16) (φ₂ := .bf16) none
    (shapeCast S5000x256 x0 shapeCasts_S5000x256_S5000x256) x1 p q).trans ?_
  rw [shapeCast_self]

/-- The printed index maps over the grid: the left and the output windows move down the rows with the point, the
    right window stays, and no window moves along the columns. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem t_lt (t : Fin cfg1.N) : t.val < 20 := by have h := t.isLt; have hN : cfg1.N = 20 := N_1; omega

section
variable (V : (c : Dev nD) → (b : Ref sig .tc) → Buf (Elt Ideal) ((c : Thread nD τ).loc b))

/-- The left array and the right matrix as the region finds them. -/
abbrev left (c : Dev nD) : FVec Ideal ⟨2, ![100000, 256]⟩ .f32 := V c main_v49
abbrev right (c : Dev nD) : FVec Ideal ⟨2, ![256, 64]⟩ .f32 := V c main_arg4

/-- Entry (p, k) of the left window's block at point t is entry (t·5000+p, k) of the left array. -/
theorem left_block (c : Dev nD) (t : Fin cfg1.N) (p : Fin 5000) (k : Fin 256) :
    iblk1 V c 0 t (ix2 p k) = left V c (ix2 (⟨t.val * 5000 + p.val, by have := t_lt t; have := p.isLt; omega⟩ : Fin 100000) k) := by
  show V c main_v49 (((cfg1.win 0).blk t).view.emb (ix2 p k)) = V c main_v49 _
  refine congrArg (V c main_v49) ?_
  obtain ⟨e0, e1, -, -, -, -⟩ := idx_facts t
  funext a; apply Fin.ext
  match a with
  | ⟨0, _⟩ => show win1_0.index t (0 : Fin 2) * 5000 + 1 * p.val = t.val * 5000 + p.val; rw [e0]; omega
  | ⟨1, _⟩ => show win1_0.index t (1 : Fin 2) * 256 + 1 * k.val = k.val; rw [e1]; omega

/-- The right window's block at every point is the whole right matrix. -/
theorem right_block (c : Dev nD) (t : Fin cfg1.N) (k : Fin 256) (q : Fin 64) :
    iblk1 V c 1 t (ix2 k q) = right V c (ix2 k q) := by
  show V c main_arg4 (((cfg1.win 1).blk t).view.emb (ix2 k q)) = V c main_arg4 _
  refine congrArg (V c main_arg4) ?_
  obtain ⟨-, -, e2, e3, -, -⟩ := idx_facts t
  funext a; apply Fin.ext
  match a with
  | ⟨0, _⟩ => show win1_1.index t (0 : Fin 2) * 256 + 1 * k.val = k.val; rw [e2]; omega
  | ⟨1, _⟩ => show win1_1.index t (1 : Fin 2) * 64 + 1 * q.val = q.val; rw [e3]; omega

/-- Entry (p, q) of the output window's block at point t sits at (t·5000+p, q) of the output array. -/
theorem out_emb (t : Fin cfg1.N) (p : Fin 5000) (q : Fin 64) :
    ((cfg1.win 2).blk t).view.emb (ix2 p q) = ix2 (⟨t.val * 5000 + p.val, by have := t_lt t; have := p.isLt; omega⟩ : Fin 100000) q := by
  obtain ⟨-, -, -, -, e4, e5⟩ := idx_facts t
  funext a; apply Fin.ext
  match a with
  | ⟨0, _⟩ => show win1_2.index t (0 : Fin 2) * 5000 + 1 * p.val = t.val * 5000 + p.val; rw [e4]; omega
  | ⟨1, _⟩ => show win1_2.index t (1 : Fin 2) * 64 + 1 * q.val = q.val; rw [e5]; omega

/-- WHAT POINT t WRITES BACK is block t of the whole product of the arrays the region finds. -/
theorem flushed_eq (c : Dev nD) (t : Fin cfg1.N) :
    (dat1 (F := Ideal) V c).flushed 2 t = ((cfg1.win 2).blk t).view.read (Elt Ideal) (product (left V c) (right V c)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x64) hz]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (ix2 p q) = product (left V c) (right V c) (((cfg1.win 2).blk t).view.emb (ix2 p q))
  rw [out_emb t p q, product_apply]
  refine (payload_apply (iblk1 V c 0 t) (iblk1 V c 1 t) p q).trans ?_
  exact Finset.sum_congr rfl fun k _ => by rw [left_block V c t p k, right_block V c t k q]

/-- An index of the output array is in point t's block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v50).slice (win1_2.rect t)).set ↔ _
  rw [View.set_slice_whole, Rect.mem_set_unit]
  exact Iff.rfl

/-- The twenty row blocks tile the output array: row r is in the block of point r / 5000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 64 ≤ (i 1).val ∧ (i 1).val < win1_2.index t (1 : Fin 2) * 64 + 64; rw [e5]; omega

/-- THE OUTPUT ARRAY after the region is the whole product of the left array and the right matrix as the region found them. -/
theorem array_eq (c : Dev nD) :
    (dat1 (F := Ideal) V c).arrAt 2 cfg1.N = product (left V c) (right V c) :=
  (dat1 (F := Ideal) V c).arrAt_eq_of_cover 2 (product (left V c) (right V c)) (fun t _ => flushed_eq V c t) (cover)

end

end Cert.KernelIdeal.Region1

end
-- ==== Proof.Result.lean ====
/-
  The kernel's result at the ideal values: the reference's last stage of the launch arguments.

  Each pallas_call leaves in its output array the whole product of its operands as it found them (Region0, Region1):
  the first, of the launch arguments x and W1, which no earlier host operation writes — the reference's value %32; the
  second, of the first layer's output — the reference's stage %49 of the arguments, once the first call's array is known —
  and of W2: the reference's value %50. With both, the program's last boundary holds the reference's result %66
  (Chain). A product stated over the plain dimension record and the reference's over its printed record are one
  function: the two records list the same axes.
-/
import proofs.«159566_j10282151706797_1_alg».proof.Proof.Chain
import proofs.«159566_j10282151706797_1_alg».proof.Proof.Region0
import proofs.«159566_j10282151706797_1_alg».proof.Proof.Region1

set_option maxRecDepth 16384

noncomputable section

namespace Cert.KernelIdeal.Result

open Idealize.ShloMosaic Idealize.ShloMosaic.TcCoe Idealize.SL.Sem
open Cert.KernelIdeal Cert.KernelIdeal.Gen Cert.KernelIdeal.Chain
open Cert.ReferenceIdeal.ReadP (val_main_v32 val_main_v49 val_main_v50 val_main_v66)

variable (m : (ℓ : Loc nD τ sig) → Buf (Elt Ideal) ℓ) (ρ : Dev nD → PrngReg)

/-- After the first call its output array is x · W1: the reference's value %32. -/
theorem first_product (c : Dev nD) :
    W4 m ρ c (Proc.devRef .tc main_v32) = val_main_v32 (F := Ideal) (x0 m c) (x2 m c) := by
  have h : W4 m ρ c (Proc.devRef .tc main_v32) = (dat0 (V3 m ρ) c).arrAt 2 cfg0.N := W4_arr m ρ c 2
  rw [h, Region0.array_eq (V3 m ρ) c]
  have hl : Region0.left (V3 m ρ) c = x0 m c := W3_arg0 m ρ c
  have hr : Region0.right (V3 m ρ) c = x2 m c := W3_arg2 m ρ c
  rw [hl, hr]
  rfl

/-- After the second call its output array is relu(layer 1) · W2: the reference's value %50. -/
theorem second_product (c : Dev nD) :
    W7 m ρ c (Proc.devRef .tc main_v50) = val_main_v50 (F := Ideal) (x0 m c) (x1 m c) (x2 m c) (x3 m c) (x4 m c) := by
  have h : W7 m ρ c (Proc.devRef .tc main_v50) = (dat1 (V6 m ρ) c).arrAt 2 cfg1.N := W7_arr m ρ c 2
  rw [h, Region1.array_eq (V6 m ρ) c]
  have hl : Region1.left (V6 m ρ) c = val_main_v49 (F := Ideal) (x0 m c) (x1 m c) (x2 m c) (x3 m c) :=
    W6_v49 m ρ c (first_product m ρ c)
  have hr : Region1.right (V6 m ρ) c = x4 m c := W6_arg4 m ρ c
  rw [hl, hr]
  rfl

/-- The result buffer at the last boundary is the reference's result %66 of the launch arguments. -/
theorem result (c : Dev nD) :
    W8 m ρ c (Proc.devRef .tc main_v66)
      = val_main_v66 (F := Ideal) (x0 m c) (x1 m c) (x2 m c) (x3 m c) (x4 m c) (x5 m c) :=
  W8_v66 m ρ c (second_product m ρ c)

end Cert.KernelIdeal.Result

end
-- ==== Proof.lean ====
/-
  The certificate of a two-layer graph convolution: out = Â·relu(Â·(x·W1) + b1)·W2 + b2 in the sense of gather, scale
  and scatter-add over the edge list with self loops, Â's weights 1/sqrt(deg src · deg dst).

  The kernel's program and the reference are the same host program — the edge preparation, and per layer the gather of
  the product's rows by source, the scaling by the edge weights, the scatter-add into the destination rows, the bias,
  and the relu between the layers — except for the two dense products: the reference has a `dot_general` of the whole
  arrays, the kernel a pallas_call that multiplies 5000 rows at a time, narrowing its operands to bf16 and accumulating
  from zero. On the extended reals the narrowing is the identity and a product into zero is the plain sum over the
  contracted coordinate, so each block the kernel writes is its block of the whole product, and the twenty blocks tile the
  100000 rows: after each call its output array IS the reference's product (Region0, Region1). Everything else being the
  same operations on the same values, the kernel's result buffer is the reference's result as a function of the
  arguments (Chain, Result); no property of the inputs is used — sums are only regrouped, never distributed over.

  The three frames: the kernel's two are the generated frame certificates; the reference's is its run with the result
  dropped. The idealization rewrote nothing, so `preserves` is trivial.
-/
import proofs.«159566_j10282151706797_1_alg».proof.Defs
import proofs.«159566_j10282151706797_1_alg».proof.Proof.Gen.Kernel
import proofs.«159566_j10282151706797_1_alg».proof.Proof.Gen.Kernel.Skeleton
import proofs.«159566_j10282151706797_1_alg».proof.Proof.Gen.Kernel.Launch
import proofs.«159566_j10282151706797_1_alg».proof.Proof.Gen.Kernel.Points
import proofs.«159566_j10282151706797_1_alg».proof.Proof.Gen.Kernel.Frame
import proofs.«159566_j10282151706797_1_alg».proof.Proof.Gen.KernelIdeal
import proofs.«159566_j10282151706797_1_alg».proof.Proof.Gen.KernelIdeal.Skeleton
import proofs.«159566_j10282151706797_1_alg».proof.Proof.Gen.KernelIdeal.Launch
import proofs.«159566_j10282151706797_1_alg».proof.Proof.Gen.KernelIdeal.Points
import proofs.«159566_j10282151706797_1_alg».proof.Proof.Gen.KernelIdeal.Frame
import proofs.«159566_j10282151706797_1_alg».proof.Proof.Gen.ReferenceIdeal
import proofs.«159566_j10282151706797_1_alg».proof.Proof.Gen.Pre_finite_inputs
import proofs.«159566_j10282151706797_1_alg».proof.Proof.KernelRun
import proofs.«159566_j10282151706797_1_alg».proof.Proof.RefRunP
import proofs.«159566_j10282151706797_1_alg».proof.Proof.RefReadP
import proofs.«159566_j10282151706797_1_alg».proof.Proof.Result
import Idealize.ShloMosaic.Adequacy
import Idealize.ShloMosaic.Init

noncomputable section

namespace Cert.Proof

open Idealize.ShloMosaic Idealize.SL.Sem

/-- The word-level kernel runs and keeps its arguments: the generated frame certificate. -/
theorem frame_kernel : Cert.frame_Kernel := fun m ρ _ => Cert.Kernel.Gen.frame m ρ

/-- The idealized kernel runs and keeps its arguments: the generated frame certificate. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end with the reference's last stage of the (agreeing) arguments in the result buffer. -/
theorem algebraic : Cert.algebraic_KernelIdeal_ReferenceIdeal := by
  intro m ρ m' ρ' _ hagree
  refine ⟨fun c => Cert.ReferenceIdeal.ReadP.val_main_v66 (F := Ideal) (Cert.KernelIdeal.Chain.x0 m c) (Cert.KernelIdeal.Chain.x1 m c)
    (Cert.KernelIdeal.Chain.x2 m c) (Cert.KernelIdeal.Chain.x3 m c) (Cert.KernelIdeal.Chain.x4 m c) (Cert.KernelIdeal.Chain.x5 m c), ?_, ?_⟩
  · exact (θ_run Cert.KernelIdeal.defs _ _).mono
      (fun r h c => ⟨(h c).1.trans (Cert.KernelIdeal.Result.result m ρ c), (h c).2⟩)
      (Cert.KernelIdeal.GenRun.run_main (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5⟩ := hagree c
    rw [Cert.ReferenceIdeal.ReadP.val_main_v66_eq, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
